-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S8192x2048 .f32) (main_arg1 : FVec F S2048x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S8192x2048 : Shape := ⟨2, ![8192, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S2048x512_S2048x512_0_0 : ∀ a, (![0, 0] : Fin 2 → Nat) a + S2048x512.size a ≤ S2048x512.size a
  h_S2048x512 : 0 < S2048x512.numel
  natLt_1_32 : 1 < 32
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  inb_S1024x512_S1024x512_0_0 : ∀ a, (![0, 0] : Fin 2 → Nat) a + S1024x512.size a ≤ S1024x512.size a
  h_S1024x512 : 0 < S1024x512.numel
  dot_S1024x2048_S2048x512_S1024x512_1_0_0_1_n_n_wf : DotDims.WF S1024x2048 S2048x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .f32 = 32 ∨ (Rect.block (s := S8192x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x2048.size a
  hwx0_1 : ∀ i : grid0.Coords, EltTy.bits .f32 = 32 ∨ (Rect.block (s := S2048x2048) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x2048.size a
  hwx0_2 : ∀ i : grid0.Coords, EltTy.bits .f32 = 32 ∨ (Rect.block (s := S8192x2048) S1024x512.size (cc0_transform_2 i) (hinb0_2 i)).WholeWords (EltTy.packing .f32)

variable [Facts₀]

def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .i1⟩
  | .hbm, ⟨8, _⟩ => ⟨S_, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_cst_2 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_cst_3 : Ref sig .tc := ⟨.hbm, 13, rfl⟩
abbrev main_v5 : Ref sig .tc := ⟨.hbm, 14, rfl⟩
abbrev main_v6 : Ref sig .tc := ⟨.hbm, 15, rfl⟩
abbrev main_cst_4 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  dot_S8192x2048_S2048x2048_S8192x2048_1_0_0_1_n_n_wf : DotDims.WF S8192x2048 S2048x2048 S8192x2048 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.SignGate.lean ====
/-
  The function both programs compute, over the extended reals.

  A weight is binarized by its sign: `gate w` is 1 where `0 ≤ w` and 0 where `w < 0` (the extended reals are
  linearly ordered, so these are the only two cases, at the infinities too). The result at row `r` and column `c`
  is the sum over the 2048 contracted positions `k` of `x (r, k) · gate (w (k, c))`: a matrix product of the input
  with the binarized weights.

  The two programs spell the binarized weight differently. One takes the one-bit answer of `0 ≤ w`, widens it to a
  32-bit word and reads that word as a signed integer (`gate_of_bit`). The other subtracts a zero threshold, selects
  0 where the difference is below zero and 1 elsewhere, then rescales by `· 1 + 0` (`gate_of_select`). Both are `gate`.
-/
import Idealize.ShloMosaic.PureOps.Ideal
import Idealize.ShloMosaic.PureOps.Ideal.Laws
import Idealize.ShloMosaic.Lib.ValueIdx

noncomputable section

namespace Cert.SignGate

open Idealize.ShloMosaic Idealize.ShloMosaic.ValueIdx

/-- The binarized weight: 1 at a non-negative weight, 0 at a negative one. -/
def gate (w : EReal) : EReal := if 0 ≤ w then 1 else 0

/-- Row `r`, column `c` of the input times the binarized weights. -/
def entry (x : (⟨2, ![8192, 2048]⟩ : Shape).Idx → EReal) (w : (⟨2, ![2048, 2048]⟩ : Shape).Idx → EReal)
    (r : Fin 8192) (c : Fin 2048) : EReal :=
  ∑ k : Fin 2048, x (ix2 r k) * gate (w (ix2 k c))

/-- The whole result: the input times the binarized weights, index by index. -/
def gatedProduct (x : (⟨2, ![8192, 2048]⟩ : Shape).Idx → EReal) (w : (⟨2, ![2048, 2048]⟩ : Shape).Idx → EReal) :
    (⟨2, ![8192, 2048]⟩ : Shape).Idx → EReal :=
  fun i => entry x w (i 0) (i 1)

/-- The f32 pattern of 1.0 denotes the extended real 1. -/
theorem ofBits_one_f32 : Ideal.ofBits .f32 0x3F800000#32 = 1 := by
  simp [Ideal.ofBits, Ideal.ieee, -EReal.coe_mul]; norm_num

/-- The comparison bit of `0 ≤ w`, zero-extended to 32 bits and read as a signed integer, is the binarized weight. -/
theorem gate_of_bit (w : EReal) :
    (((((Ideal.cmp .oge w (Ideal.ofBits .f32 0x00000000#32)).setWidth 32).toInt : ℤ) : ℝ) : EReal) = gate w := by
  rw [Ideal.ofBits_zero_f32]
  unfold gate Ideal.cmp
  by_cases h : (0 : EReal) ≤ w
  · simp [h]
  · simp [h]

/-- Selecting 0 where `w - 0 < 0` and 1 elsewhere, then rescaling by `· 1 + 0`, is the binarized weight. -/
theorem gate_of_select (w : EReal) :
    Scalar.select (Ideal.cmp .olt (w - Ideal.ofBits .f32 0x00000000#32) (Ideal.ofBits .f32 0x00000000#32))
        (Ideal.ofBits .f32 0x00000000#32) (Ideal.ofBits .f32 0x3F800000#32) * Ideal.ofBits .f32 0x3F800000#32
      + Ideal.ofBits .f32 0x00000000#32 = gate w := by
  rw [Ideal.ofBits_zero_f32, ofBits_one_f32, sub_zero, mul_one, add_zero]
  unfold gate Ideal.cmp
  by_cases h : (0 : EReal) ≤ w
  · rw [if_pos h]
    have : ¬ w < 0 := not_lt.mpr h
    simp [this, Scalar.select]
  · rw [if_neg h]
    have : w < 0 := not_le.mp h
    simp [this, Scalar.select]

end Cert.SignGate

end
-- ==== Proof.KernelBlock.lean ====
/-
  One output block of the kernel, entry by entry.

  The body loads a 2048 × 512 block of weights and a 1024 × 2048 block of the input. It turns each weight into the
  one-bit answer of `0 ≤ w`, widens the bit to a 32-bit word and reads the word as a signed integer: the binarized
  weight `gate w`. Narrowing either operand to sixteen bits changes nothing over the extended reals. The matrix unit
  then contracts the input block's second axis against the weight block's first into a zero accumulator, so entry
  `(p, q)` of the stored block is the sum over `k` of `x (p, k) · gate (w (k, q))`.
-/
import proofs.«153431_j12111807775177_1_alg».proof.Proof.Gen.KernelIdeal.Skeleton
import proofs.«153431_j12111807775177_1_alg».proof.Proof.SignGate
import Idealize.ShloMosaic.Lib.ValueIdx
import Idealize.ShloMosaic.PureOps.Ideal.Laws

noncomputable section

namespace Cert.KernelIdeal.Block

open Cert.KernelIdeal Cert.KernelIdeal.Gen Cert.SignGate
open Idealize.ShloMosaic Idealize.ShloMosaic.ValueIdx

/-- The matrix unit's left operand index keeps the output's row; -/
theorem lhs_row (i : S1024x512.Idx) (q : dot_S1024x2048_S2048x512_S1024x512_1_0_0_1_n_n.contr.Idx) :
    (dot_S1024x2048_S2048x512_S1024x512_1_0_0_1_n_n.lhsIdx i q 0).val = (i 0).val := by
  unfold DotDims.lhsIdx
  rw [dif_neg (show ¬(0 : Fin S1024x2048.rank) ∈ dot_S1024x2048_S2048x512_S1024x512_1_0_0_1_n_n.lhsBatch by decide), dif_pos (show (0 : Fin S1024x2048.rank) ∈ dot_S1024x2048_S2048x512_S1024x512_1_0_0_1_n_n.lhsNonContracting by decide)]
  rfl
/-- its column is the contracted position. -/
theorem lhs_col (i : S1024x512.Idx) (q : dot_S1024x2048_S2048x512_S1024x512_1_0_0_1_n_n.contr.Idx) :
    (dot_S1024x2048_S2048x512_S1024x512_1_0_0_1_n_n.lhsIdx i q 1).val = (q ⟨0, by decide⟩).val :=
  dot_S1024x2048_S2048x512_S1024x512_1_0_0_1_n_n.lhsIdx_val_of_single rfl i q
/-- The right operand's row is the contracted position; -/
theorem rhs_row (i : S1024x512.Idx) (q : dot_S1024x2048_S2048x512_S1024x512_1_0_0_1_n_n.contr.Idx) :
    (dot_S1024x2048_S2048x512_S1024x512_1_0_0_1_n_n.rhsIdx i q 0).val = (q ⟨0, by decide⟩).val :=
  dot_S1024x2048_S2048x512_S1024x512_1_0_0_1_n_n.rhsIdx_val_of_single rfl i q
/-- its column is the output's column. -/
theorem rhs_col (i : S1024x512.Idx) (q : dot_S1024x2048_S2048x512_S1024x512_1_0_0_1_n_n.contr.Idx) :
    (dot_S1024x2048_S2048x512_S1024x512_1_0_0_1_n_n.rhsIdx i q 1).val = (i 1).val := by
  unfold DotDims.rhsIdx
  rw [dif_neg (show ¬(1 : Fin S2048x512.rank) ∈ dot_S1024x2048_S2048x512_S1024x512_1_0_0_1_n_n.rhsBatch by decide), dif_pos (show (1 : Fin S2048x512.rank) ∈ dot_S1024x2048_S2048x512_S1024x512_1_0_0_1_n_n.rhsNonContracting by decide)]
  rfl

/-- Entry `(p, q)` of the block the body stores: the input block's row `p` against column `q` of the binarized
    weight block. -/
theorem block_entry (wblk : Vec Ideal S2048x512 .f32) (xblk : Vec Ideal S1024x2048 .f32) (p : Fin 1024) (q : Fin 512) :
    k0_pay1 (F := Ideal) wblk xblk (ix2 p q) = ∑ k : Fin 2048, xblk (ix2 p k) * gate (wblk (ix2 k q)) := by
  unfold k0_pay1
  simp only [matmul]
  rw [Ideal.matmul_constant_zero_apply, ← Equiv.sum_comp (contrEquiv1 dot_S1024x2048_S2048x512_S1024x512_1_0_0_1_n_n 2048 rfl rfl).symm]
  refine Finset.sum_congr rfl fun k _ => ?_
  have hk := contrEquiv1_symm_val dot_S1024x2048_S2048x512_S1024x512_1_0_0_1_n_n 2048 rfl rfl k
  have el : dot_S1024x2048_S2048x512_S1024x512_1_0_0_1_n_n.lhsIdx (ix2 p q) ((contrEquiv1 dot_S1024x2048_S2048x512_S1024x512_1_0_0_1_n_n 2048 rfl rfl).symm k) = ix2 p k := funext fun a => Fin.ext (by
    match a with
    | ⟨0, _⟩ => exact lhs_row _ _
    | ⟨1, _⟩ => exact (lhs_col _ _).trans hk)
  have er : dot_S1024x2048_S2048x512_S1024x512_1_0_0_1_n_n.rhsIdx (ix2 p q) ((contrEquiv1 dot_S1024x2048_S2048x512_S1024x512_1_0_0_1_n_n 2048 rfl rfl).symm k) = ix2 k q := funext fun a => Fin.ext (by
    match a with
    | ⟨0, _⟩ => exact (rhs_row _ _).trans hk
    | ⟨1, _⟩ => exact rhs_col _ _)
  rw [el, er]
  exact congrArg (xblk (ix2 p k) * ·) (gate_of_bit (wblk (ix2 k q)))

end Cert.KernelIdeal.Block

end
-- ==== Proof.KernelValue.lean ====
/-
  The kernel's result array, after all 32 grid points, is the input times the binarized weights.

  Grid point `t = (a, b)` reads rows `1024·a … 1024·a + 1023` of the input (all 2048 columns), columns
  `512·b … 512·b + 511` of the weights (all 2048 rows), and writes the 1024 × 512 block at block position `(a, b)`
  of the result. Entry `(p, q)` of that block is the sum over `k` of `x (1024·a + p, k) · gate (w (k, 512·b + q))`,
  which is the entry of the whole product at the array position the block puts `(p, q)` at (`flushed_eq`).
  The 8 × 4 blocks tile the 8192 × 2048 result (`cover`: row `r`, column `s` lies in block `(r / 1024, s / 512)`),
  so the array ends holding the whole product (`final`, `run`).
-/
import proofs.«153431_j12111807775177_1_alg».proof.Proof.Gen.KernelIdeal.Value
import proofs.«153431_j12111807775177_1_alg».proof.Proof.KernelBlock

noncomputable section

namespace Cert.KernelIdeal.Whole

open Cert.KernelIdeal Cert.KernelIdeal.Gen Cert.KernelIdeal.Block Cert.SignGate
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The block positions over the grid: the input block follows the result's block row and starts at column 0, the
    weight block starts at row 0 and follows the result's block column, and the result's block position stays
    inside 8 × 4. -/
theorem block_positions : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 7
    ∧ win0_2.index t (1 : Fin 2) ≤ 3 :=
  (by decide +kernel : ∀ t : Fin grid0.N, _)

/-- Every block position of the 8 × 4 tiling is some grid point's. -/
theorem block_onto : ∀ (a : Fin 8) (b : Fin 4), ∃ t : Fin cfg0.N, win0_2.index t = ![a.val, b.val] :=
  (by decide +kernel : ∀ (a : Fin 8) (b : Fin 4), ∃ t : Fin grid0.N, win0_2.index t = ![a.val, b.val])

/-- The input array and the weight array as the region finds them, at their literal shapes. -/
abbrev xarr (c : Dev nD) : Vec Ideal S8192x2048 .f32 := V m c main_arg0
abbrev warr (c : Dev nD) : Vec Ideal S2048x2048 .f32 := V m c main_arg1

/-- What grid point `t` writes back is block `t` of the whole product of the argument arrays. -/
theorem flushed_eq (c : Dev nD) (t : Fin cfg0.N) :
    (dats m 0 c).flushed 2 t
      = ((cfg0.win 2).blk t).view.read (Elt Ideal) (gatedProduct (xarr m c) (warr m c)) := by
  rw [Value.flushed2]
  unfold out0_2
  rw [View.canon_unit_zero origin]
  simp only [View.ld_unit_zero (S := S1024x2048) origin, View.ld_unit_zero (S := S2048x512) origin]
  obtain ⟨e0, e1, e2, e3, -, -⟩ := block_positions t
  funext j
  obtain ⟨p, q, rfl⟩ : ∃ (p : Fin 1024) (q : Fin 512), j = ix2 p q := ⟨j 0, j 1, eq_ix2 j⟩
  show k0_pay1 (F := Ideal) (iblk m c 1 t) (iblk m c 0 t) (ix2 p q)
    = gatedProduct (xarr m c) (warr m c) (((cfg0.win 2).blk t).view.emb (ix2 p q))
  refine (block_entry (iblk m c 1 t) (iblk m c 0 t) p q).trans ?_
  show _ = ∑ k : Fin 2048, xarr m c (ix2 ((((cfg0.win 2).blk t).view.emb (ix2 p q)) 0) k)
      * gate (warr m c (ix2 k ((((cfg0.win 2).blk t).view.emb (ix2 p q)) 1)))
  refine Finset.sum_congr rfl fun k _ => ?_
  have hx : ((cfg0.win 0).blk t).view.emb (ix2 p k) = ix2 ((((cfg0.win 2).blk t).view.emb (ix2 p q)) 0) k := by
    funext a; apply Fin.ext
    match a with
    | ⟨0, _⟩ => show win0_0.index t (0 : Fin 2) * 1024 + 1 * p.val = win0_2.index t (0 : Fin 2) * 1024 + 1 * p.val; omega
    | ⟨1, _⟩ => show win0_0.index t (1 : Fin 2) * 2048 + 1 * k.val = k.val; omega
  have hw : ((cfg0.win 1).blk t).view.emb (ix2 k q) = ix2 k ((((cfg0.win 2).blk t).view.emb (ix2 p q)) 1) := by
    funext a; apply Fin.ext
    match a with
    | ⟨0, _⟩ => show win0_1.index t (0 : Fin 2) * 2048 + 1 * k.val = k.val; omega
    | ⟨1, _⟩ => show win0_1.index t (1 : Fin 2) * 512 + 1 * q.val = win0_2.index t (1 : Fin 2) * 512 + 1 * q.val; omega
  show xarr m c (((cfg0.win 0).blk t).view.emb (ix2 p k)) * gate (warr m c (((cfg0.win 1).blk t).view.emb (ix2 k q))) = _
  rw [hx, hw]
  rfl

/-- An index of the result array is in point `t`'s block iff each coordinate is in the block's range on its axis. -/
theorem mem_block (t : Fin cfg0.N) (i : S8192x2048.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v0).slice (win0_2.rect t)).set ↔ _
  rw [View.set_slice_whole, Rect.mem_set_unit]
  exact Iff.rfl

/-- The blocks tile the result: row `r`, column `s` lies in the block at position `(r / 1024, s / 512)`. -/
theorem cover (i : S8192x2048.Idx) :
    ∃ t : Fin cfg0.N, (cfg0.win 2).flush t = true ∧ i ∈ ((cfg0.win 2).blk t).view.set := by
  have hi0 : (i 0).val < 8192 := (i 0).isLt
  have hi1 : (i 1).val < 2048 := (i 1).isLt
  obtain ⟨t, ht⟩ := block_onto ⟨(i 0).val / 1024, by omega⟩ ⟨(i 1).val / 512, by omega⟩
  have q0 : win0_2.index t (0 : Fin 2) = (i 0).val / 1024 := congrFun ht 0
  have q1 : win0_2.index t (1 : Fin 2) = (i 1).val / 512 := congrFun ht 1
  refine ⟨t, flush0_2 t, ?_⟩
  rw [mem_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 512 ≤ (i 1).val ∧ (i 1).val < win0_2.index t (1 : Fin 2) * 512 + 512; omega

/-- The result array after the run is the whole product of the argument arrays. -/
theorem final (c : Dev nD) :
    (dats m 0 c).arrAt 2 cfg0.N
      = gatedProduct (m ((c : Thread nD τ).loc main_arg0)) (m ((c : Thread nD τ).loc main_arg1)) :=
  (dats m 0 c).arrAt_eq_of_cover 2 _ (fun t _ => flushed_eq m c t) cover

/-- Every weakly fair execution of the kernel ends with the result array at the whole product and the arguments
    unchanged. -/
theorem run : θ_run defs (onTc (τ := τ) (main (F := Ideal))) ⟨m, fun _ => 0, ρ⟩ fun r => ∀ c : Dev nD,
      r.2.mem ((c : Thread nD τ).loc main_v0)
        = gatedProduct (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.ReferenceValue.lean ====
/-
  The reference's result, index by index, is the input times the binarized weights.

  Its weight matrix is built entry by entry: subtract the zero threshold, select 0 where the difference is negative
  and 1 elsewhere, rescale by `· 1 + 0`. At every entry that is `gate` of the weight (`weights_apply`). Its last
  operation is one matrix product with that matrix, contracting the input's second axis against the weights' first:
  the sum over `k` of `x (r, k) · gate (w (k, c))` (`result_eq`).
-/
import proofs.«153431_j12111807775177_1_alg».proof.Proof.Gen.ReferenceIdeal.Read
import proofs.«153431_j12111807775177_1_alg».proof.Proof.SignGate

noncomputable section

namespace Cert.ReferenceIdeal.RefValue

open Cert.ReferenceIdeal Cert.ReferenceIdeal.Gen Cert.ReferenceIdeal.Read Cert.SignGate
open Idealize.ShloMosaic Idealize.ShloMosaic.ValueIdx

/-- Every entry of the reference's weight matrix is the binarized weight. -/
theorem weights_apply (w : (⟨S2048x2048, .f32⟩ : BufTy).Contents (Elt Ideal)) (j : S2048x2048.Idx) :
    val_main_v8 (F := Ideal) w j = gate (w j) := by
  rw [val_main_v8_apply, val_main_v6_apply, val_main_v4_apply, val_main_v3_apply, val_main_v1_apply,
    val_main_v0_apply, val_main_v2_apply, val_main_call0_v0_apply, val_main_call0_v1_apply, val_main_v5_apply,
    val_main_v7_apply, val_main_cst_apply, val_main_cst_0_apply, val_main_cst_1_apply, val_main_cst_2_apply,
    val_main_cst_3_apply, val_main_cst_4_apply]
  exact gate_of_select (w j)

/-- The reference's result is the input times the binarized weights. -/
theorem result_eq (x : (⟨S8192x2048, .f32⟩ : BufTy).Contents (Elt Ideal)) (w : (⟨S2048x2048, .f32⟩ : BufTy).Contents (Elt Ideal)) :
    val_main_v9 (F := Ideal) x w = gatedProduct x w := by
  funext i
  rw [val_main_v9_apply]
  show _ = ∑ k : Fin 2048, x (ix2 (i 0) k) * gate (w (ix2 k (i 1)))
  refine Finset.sum_congr rfl fun k _ => ?_
  rw [weights_apply]
  have el : lidx_main_v9 i k = ix2 (i 0) k := funext fun a => Fin.ext (by
    match a with
    | ⟨0, _⟩ => rfl
    | ⟨1, _⟩ => rfl)
  have er : ridx_main_v9 i k = ix2 k (i 1) := funext fun a => Fin.ext (by
    match a with
    | ⟨0, _⟩ => rfl
    | ⟨1, _⟩ => rfl)
  rw [el, er]
  rfl

end Cert.ReferenceIdeal.RefValue

end
-- ==== Proof.lean ====
/-
  The kernel multiplies the input by the weights binarized by their sign, and so does the reference.

  A weight `w` becomes 1 where `0 ≤ w` and 0 where `w < 0` (Proof/SignGate.lean). The kernel computes that bit by one
  comparison and reads it as a number; each of its 32 grid points multiplies a 1024 × 2048 block of the input with a
  2048 × 512 block of binarized weights in one matrix product, and the 8 × 4 result blocks tile the 8192 × 2048
  result (Proof/KernelBlock.lean, Proof/KernelValue.lean). The reference subtracts a zero threshold, selects 0 or 1
  by the sign of the difference, rescales by `· 1 + 0`, and takes one whole matrix product (Proof/ReferenceValue.lean).
  Over the extended reals both are the sum over `k` of `x (r, k) · gate (w (k, c))`; the sum has the same terms in
  the same order on both sides, so no law of arithmetic beyond `w - 0 = w`, `a · 1 = a` and `a + 0 = a` is used and
  the finiteness of the inputs is never needed.

  The three programs run and leave their arguments unchanged by their frame runs; the idealization rewrote nothing,
  so there is nothing to preserve.
-/
import proofs.«153431_j12111807775177_1_alg».proof.Defs
import proofs.«153431_j12111807775177_1_alg».proof.Proof.Gen.Kernel
import proofs.«153431_j12111807775177_1_alg».proof.Proof.Gen.Kernel.Skeleton
import proofs.«153431_j12111807775177_1_alg».proof.Proof.Gen.Kernel.Launch
import proofs.«153431_j12111807775177_1_alg».proof.Proof.Gen.Kernel.Points
import proofs.«153431_j12111807775177_1_alg».proof.Proof.Gen.Kernel.Frame
import proofs.«153431_j12111807775177_1_alg».proof.Proof.Gen.KernelIdeal
import proofs.«153431_j12111807775177_1_alg».proof.Proof.Gen.KernelIdeal.Skeleton
import proofs.«153431_j12111807775177_1_alg».proof.Proof.Gen.KernelIdeal.Launch
import proofs.«153431_j12111807775177_1_alg».proof.Proof.Gen.KernelIdeal.Points
import proofs.«153431_j12111807775177_1_alg».proof.Proof.Gen.KernelIdeal.Frame
import proofs.«153431_j12111807775177_1_alg».proof.Proof.Gen.ReferenceIdeal
import proofs.«153431_j12111807775177_1_alg».proof.Proof.Gen.Pre_finite_inputs
import proofs.«153431_j12111807775177_1_alg».proof.Proof.Gen.KernelIdeal.Value
import proofs.«153431_j12111807775177_1_alg».proof.Proof.Gen.ReferenceIdeal.Run
import proofs.«153431_j12111807775177_1_alg».proof.Proof.Gen.ReferenceIdeal.Read
import proofs.«153431_j12111807775177_1_alg».proof.Proof.KernelValue
import proofs.«153431_j12111807775177_1_alg».proof.Proof.ReferenceValue
import Idealize.ShloMosaic.Adequacy
import Idealize.ShloMosaic.Init

noncomputable section

namespace Cert.Proof

open Idealize.ShloMosaic Idealize.SL.Sem

/-- The kernel as printed runs and keeps its arguments. -/
theorem frame_kernel [Cert.Kernel.Facts] [Cert.Pre_finite_inputs.Facts] : Cert.frame_Kernel :=
  fun m ρ _ => Cert.Kernel.Gen.frame m ρ

/-- The idealized kernel runs and keeps its arguments. -/
theorem frame_kernel_ideal [Cert.KernelIdeal.Facts] [Cert.Pre_finite_inputs.Facts] : Cert.frame_KernelIdeal :=
  fun m ρ _ => Cert.KernelIdeal.Gen.frame m ρ

/-- The idealized reference runs and keeps its arguments: its run with the result dropped. -/
theorem frame_reference_ideal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on the arguments both idealized programs end with the input times the binarized weights. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
